-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v26 : BitVec 1 := Scalar.cmpi .eq arg0 c63_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.Pieces.lean ====
/-
  What one grid point leaves behind, as values.

  The body keeps a running total in a one-entry scratch. At every point it loads the two input blocks `x0`, `x1` and the
  scratch `s`, and stores back `update x0 x1 s` — the scratch plus the block's loss sum (the payload `k0_pay2`). At the
  first point it first stores the zero entry (`k0_pay1`) and reads that back, so there `s` is zero; at the last point it
  also copies the updated scratch into the output's one-entry block. The three lemmas per case below read those stores
  back: a store through the whole one-entry rectangle leaves its payload, a load through a whole buffer reads its
  contents, and a load of what one whole store left reads that store's payload.
-/
import proofs.«143065_j13975823581342_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 rectangle. -/
theorem origin : (![0, 0] : Fin 2 → Nat) = fun _ => 0 := funext fun a => by fin_cases a <;> rfl

/-- A middle point (neither first nor last): the scratch holding `s` ends at the update of `s` by the two blocks. -/
theorem scratch_mid (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S256x4096 .f32) (s : Vec F S1x1 .f32) :
    sout0_B_0 c i a1 h1 a2 h2 a3 h3 a4 h4 hc0 hc1 x0 x1 s = k0_pay2 x0 x1 s := by
  unfold sout0_B_0
  rw [View.read_writes_eq_canon _ _ _ (scover0_B_0 c i a1 h1 a2 h2 a3 h3 a4 h4 hc0 hc1 x0 x1 s)]
  unfold kernelRun0_B
  dsimp only
  sl_unfold_words
  rw [View.canon_unit_zero origin]
  simp only [View.readAt_eq_ld, h1.read_unread, h2.read_unread, h4.read_unread, View.ld_unit_zero (S := S256x4096) origin,
    View.ld_unit_zero (S := S1x1) origin]

/-- The first point: the scratch is zeroed, read back, and ends at the update of the zero entry. -/
theorem scratch_first (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S256x4096 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S256x4096) origin]

/-- The last point: the scratch holding `s` ends at the update of `s` … -/
theorem scratch_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (s : Vec F S1x1 .f32) :
    sout0_C_0 c i a1 h1 a2 h2 a3 h3 a4 h4 hc0 hc1 x0 x1 s = k0_pay2 x0 x1 s := by
  unfold sout0_C_0
  rw [View.read_writes_eq_canon _ _ _ (scover0_C_0 c i a1 h1 a2 h2 a3 h3 a4 h4 hc0 hc1 x0 x1 s)]
  unfold kernelRun0_C
  dsimp only
  sl_unfold_words
  rw [View.canon_unit_zero origin]
  simp only [View.readAt_eq_ld, h1.read_unread, h2.read_unread, h4.read_unread, View.ld_unit_zero (S := S256x4096) origin,
    View.ld_unit_zero (S := S1x1) origin]

/-- … and the output's block is a copy of it. -/
theorem out_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (s : Vec F S1x1 .f32) :
    out0_C_2 c i a1 h1 a2 h2 a3 h3 a4 h4 hc0 hc1 x0 x1 s = k0_pay2 x0 x1 s := by
  unfold out0_C_2
  rw [View.read_writes_eq_canon _ _ _ (cover0_C_2 c i a1 h1 a2 h2 a3 h3 a4 h4 hc0 hc1 x0 x1 s)]
  unfold kernelRun0_C
  dsimp only
  sl_unfold_words
  rw [View.canon_unit_zero origin, View.readCov_unit_zero (S := S1x1) _ origin]
  simp only [View.readAt_eq_ld, h1.read_unread, h2.read_unread, h4.read_unread, View.ld_unit_zero (S := S256x4096) origin,
    View.ld_unit_zero (S := S1x1) origin]

end Cert.KernelIdeal.Pieces

end
-- ==== Proof.Carried.lean ====
/-
  The running total from one grid point to the next.

  After the first point the scratch holds the update of the zero entry by the first pair of blocks; after every later
  point it holds the update, by that point's pair of blocks, of what the point before left; and at the last point the
  output's block is a copy of the scratch. These are the cases' values (the piece lemmas) put through the point-by-point
  description of the run.
-/
import proofs.«143065_j13975823581342_1_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- Point `t`'s block of the first argument, and of the second, at their literal type. -/
abbrev xblk (c : Dev nD) (t : Fin cfg0.N) : Vec F S256x4096 .f32 := iblk m c 0 t
abbrev yblk (c : Dev nD) (t : Fin cfg0.N) : Vec F S256x4096 .f32 := iblk m c 1 t

/-- What the scratch holds after position `n`. -/
abbrev scratchAt (c : Dev nD) (n : ℕ) (hn : n < cfg0.N) : Vec F S1x1 .f32 := (outsAt0 m c n hn).2

/-- After the first point: the update of the zero entry. -/
theorem scratch_init (c : Dev nD) (t : Fin cfg0.N) (h0 : t.val % 64 = 0) :
    scratchAt m c t.val t.isLt = k0_pay2 (xblk m c t) (yblk m c t) (k0_pay1 (F := F)) := by
  have hN : t.val < 64 := lt_of_lt_of_eq t.isLt (show cfg0.N = 64 from N_0)
  have h1 : ¬t.val % 64 = 63 := by omega
  show (outsAt0 m c t.val t.isLt).2 = _
  rw [outsAt0_A m c t h0 h1]
  dsimp only
  exact scratch_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a later point: the update of what the point before left. -/
theorem scratch_step (c : Dev nD) (t : Fin cfg0.N) (h0 : ¬t.val % 64 = 0) :
    scratchAt m c t.val t.isLt
      = k0_pay2 (xblk m c t) (yblk m c t) (scratchAt m c (t.val - 1) (Nat.lt_of_le_of_lt (Nat.sub_le _ _) t.isLt)) := by
  show (outsAt0 m c t.val t.isLt).2 = _
  by_cases h1 : t.val % 64 = 63
  · rw [outsAt0_C m c t h0 h1]
    dsimp only
    exact scratch_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_mid c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last point the output's block is what the scratch then holds. -/
theorem out_final (c : Dev nD) (t : Fin cfg0.N) (h1 : t.val % 64 = 63) :
    (outsAt0 m c t.val t.isLt).1 = scratchAt m c t.val t.isLt := by
  have h0 : ¬t.val % 64 = 0 := by omega
  show (outsAt0 m c t.val t.isLt).1 = (outsAt0 m c t.val t.isLt).2
  rw [outsAt0_C m c t h0 h1]
  dsimp only
  exact (out_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (scratch_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Carried

end
-- ==== Proof.LossSum.lean ====
/-
  The mathematics both programs compute, stated once over the extended reals and over no program.

  For one pair of entries `a`, `b` put `z = a - b`. The loss of the pair is `(h * z) * z` where `|z| < β` and
  `β * (|z| - γ)` elsewhere, with `β`, `h`, `γ` the three float words `0x3C23D70A`, `0x3F000000`, `0x3BA3D70A` that both
  programs carry (so their values are never needed: the same word reads the same on both sides). The result of either
  program is the sum of that loss over all 16384 × 4096 pairs, divided by 16384.

  The kernel takes the rows 256 at a time: block `t` holds rows `256 * t` … `256 * t + 255`, it sums a block's loss
  along each row and then down the rows, and adds the block's total to a running total that starts from zero. The
  reference sums over every pair at once. Addition on the extended reals is commutative and associative (it is a
  commutative monoid, `⊥ + ⊤ = ⊥` included), so the two groupings of the one sum agree, with no finiteness needed.
-/
import Idealize.ShloMosaic.PureOps.Ideal
import Idealize.ShloMosaic.PureOps.Ideal.Laws
import Idealize.ShloMosaic.Lib.ValueIdx

noncomputable section

open scoped BigOperators

namespace Cert.LossSum

open Idealize.ShloMosaic Idealize.ShloMosaic.ValueIdx

/-- The shape of the two argument arrays. -/
abbrev SArr : Shape := ⟨2, ![16384, 4096]⟩

/-- One pair's loss: with `z = a - b`, `(h * z) * z` where `|z| < β`, and `β * (|z| - γ)` elsewhere. -/
def lossAt (a b : Ideal .f32) : Ideal .f32 :=
  Scalar.select (FloatOps.cmpf .olt (FloatOps.absf (FloatOps.subf a b)) (Scalar.ofBits .f32 0x3C23D70A#32))
    (FloatOps.mulf (FloatOps.mulf (Scalar.ofBits .f32 0x3F000000#32) (FloatOps.subf a b)) (FloatOps.subf a b))
    (FloatOps.mulf (Scalar.ofBits .f32 0x3C23D70A#32)
      (FloatOps.subf (FloatOps.absf (FloatOps.subf a b)) (Scalar.ofBits .f32 0x3BA3D70A#32)))

/-- Row `r` of block `t` is row `256 * t + r` of the array. -/
def rowOf (t : Fin 64) (r : Fin 256) : Fin 16384 := ⟨256 * t.val + r.val, by omega⟩

theorem rowOf_val (t : Fin 64) (r : Fin 256) : (rowOf t r).val = 256 * t.val + r.val := rfl

/-- The loss summed over block `t`: along each of its 256 rows, then down the rows. -/
def blockSum (x y : SArr.Idx → EReal) (t : Fin 64) : EReal :=
  ∑ r : Fin 256, ∑ j : Fin 4096, lossAt (x (ix2 (rowOf t r) j)) (y (ix2 (rowOf t r) j))

/-- The loss summed over every pair. -/
def total (x y : SArr.Idx → EReal) : EReal := ∑ i : SArr.Idx, lossAt (x i) (y i)

/-- The 64 blocks of 256 rows are the 16384 rows, each once: `(t, r) ↦ 256 * t + r` is a bijection. -/
theorem sum_rows {M : Type*} [AddCommMonoid M] (g : Fin 16384 → M) :
    ∑ t : Fin 64, ∑ r : Fin 256, g (rowOf t r) = ∑ a : Fin 16384, g a := by
  rw [← Fintype.sum_prod_type' (f := fun t r => g (rowOf t r))]
  refine Fintype.sum_equiv (finProdFinEquiv (m := 64) (n := 256)) _ _ (fun p => congrArg g (Fin.ext ?_))
  show 256 * p.1.val + p.2.val = p.2.val + 256 * p.1.val
  omega

/-- So the block sums add up to the sum over every pair. -/
theorem sum_blockSum (x y : SArr.Idx → EReal) : ∑ t : Fin 64, blockSum x y t = total x y := by
  unfold blockSum total
  rw [sum_idx2 (fun i => lossAt (x i) (y i))]
  exact sum_rows (fun a => ∑ j : Fin 4096, lossAt (x (ix2 a j)) (y (ix2 a j)))

/-- Block `t`'s sum for a natural `t` (zero past the last block), so that the running total is a sum over a range. -/
def blockSumN (x y : SArr.Idx → EReal) (t : ℕ) : EReal :=
  if h : t < 64 then blockSum x y ⟨t, h⟩ else 0

theorem blockSumN_of_lt (x y : SArr.Idx → EReal) (t : ℕ) (h : t < 64) : blockSumN x y t = blockSum x y ⟨t, h⟩ :=
  dif_pos h

/-- The running total after block `n`: blocks `0` … `n`. -/
def running (x y : SArr.Idx → EReal) (n : ℕ) : EReal := ∑ t ∈ Finset.range (n + 1), blockSumN x y t

/-- After the first block the running total, started from zero, is that block's sum. -/
theorem running_zero (x y : SArr.Idx → EReal) : running x y 0 = 0 + blockSumN x y 0 := by
  unfold running
  rw [Finset.sum_range_one, zero_add]

/-- Each later block adds its sum. -/
theorem running_succ (x y : SArr.Idx → EReal) (n : ℕ) : running x y (n + 1) = running x y n + blockSumN x y (n + 1) := by
  unfold running
  rw [Finset.sum_range_succ]

/-- After the last block the running total is the sum over every pair. -/
theorem running_last (x y : SArr.Idx → EReal) : running x y 63 = total x y := by
  unfold running
  rw [Finset.sum_range, ← sum_blockSum]
  exact Finset.sum_congr rfl fun t _ => blockSumN_of_lt x y t.val t.isLt

/-- The shape of a scalar: one entry, at the empty index. -/
abbrev SScal : Shape := ⟨0, ![]⟩

/-- What both programs do last: divide the scalar by 16384 (the host's quotient by the float word `0x46800000`). -/
def meanOf (s : SScal.Idx → EReal) : SScal.Idx → EReal :=
  Host.divf (F := Ideal) (φ := .f32) s (constant (F := Ideal) SScal .f32 0x46800000#32)

/-- The result of either program: the loss summed over every pair, divided by 16384. -/
def result (x y : SArr.Idx → EReal) : SScal.Idx → EReal := meanOf fun _ => total x y

end Cert.LossSum

end
-- ==== Proof.Payload.lean ====
/-
  The update of the running total, read at its one entry.

  `k0_pay2 x0 x1 s` forms the loss of every pair of the two blocks, sums it along each row (a reduction over the column
  axis into 256 row sums), stands the row sums up as a column, sums that column (a reduction over the row axis into one
  entry), and adds the result to the scratch `s`. On the extended reals a reduction over one axis is the sum over that
  axis's coordinates, and the casts between [256] and [256,1], and between [1] and [1,1], only rename an index without
  moving it in row-major order. So at its one entry the update is `s` there plus the double sum of the loss.
-/
import proofs.«143065_j13975823581342_1_alg».proof.Proof.Gen.KernelIdeal.Skeleton
import proofs.«143065_j13975823581342_1_alg».proof.Proof.LossSum
import Idealize.ShloMosaic.Lib.Pipeline.Value
import Idealize.ShloMosaic.PureOps.Ideal.Laws

noncomputable section

open scoped BigOperators

namespace Cert.KernelIdeal.Payload

open Cert.KernelIdeal Cert.KernelIdeal.Gen Cert.LossSum
open Idealize.ShloMosaic Idealize.ShloMosaic.ValueIdx

/-- Putting column `k` into the row index `r` gives the entry `(r, k)`. -/
theorem lift_row (h : S256x4096.Reduces [1] S256) (r : Fin 256) (k : Fin 4096) : h.lift (ix1 r) k = ix2 r k := by
  funext c
  match c with
  | ⟨0, _⟩ => exact Fin.ext rfl
  | ⟨1, _⟩ => exact Fin.ext rfl

/-- Putting row `k` into the one index of [1] gives the entry `(k, 0)` of the column. -/
theorem lift_col (h : S256x1.Reduces [0] S1) (k : Fin 256) : h.lift (ix1 (0 : Fin 1)) k = ix2 k (0 : Fin 1) := by
  funext c
  match c with
  | ⟨0, _⟩ => exact Fin.ext rfl
  | ⟨1, _⟩ => exact Fin.ext rfl

/-- Row sums, then the sum of the column of row sums, of a [256, 4096] array: at the one entry of the [1, 1] result it
    is the double sum over rows and columns. -/
theorem sum_rows_then_col (src : FVec Ideal S256x4096 .f32)
    (h1 : S256x4096.Reduces [1] S256) (c1 : S256.ShapeCasts S256x1) (h0 : S256x1.Reduces [0] S1) (c0 : S1.ShapeCasts S1x1)
    (hφ hφ' : FKind.Formats .f32) (hacc : (0x00000000#32 : BitVec 32) = FKind.add.neutral .f32 hφ)
    (hacc' : (0x00000000#32 : BitVec 32) = FKind.add.neutral .f32 hφ') (y : S1x1.Idx) :
    shapeCast S1x1 (multiReduction .add [0] S1
        (shapeCast S256x1 (multiReduction .add [1] S256 src 0x00000000#32 h1 hφ hacc) c1) 0x00000000#32 h0 hφ' hacc') c0 y
      = ∑ r : Fin 256, ∑ j : Fin 4096, src (ix2 r j) := by
  refine (shapeCast_apply _ c0 y (ix1 (0 : Fin 1)) ?_).trans ?_
  · rw [Shape.rowMajor_val_one, Shape.rowMajor_val_two]
    have hy0 := idx2_lt0 y
    have hy1 := idx2_lt1 y
    show (0 : ℕ) = (y 0).val * 1 + (y 1).val
    omega
  refine (Ideal.multiReduction_add_single _ _ h0 hφ' hacc' _).trans ?_
  refine Finset.sum_congr rfl fun r _ => ?_
  rw [lift_col h0 r]
  refine (shapeCast_apply _ c1 (ix2 r (0 : Fin 1)) (ix1 r) ?_).trans ?_
  · rw [Shape.rowMajor_val_one, Shape.rowMajor_val_two]
    show r.val = r.val * 1 + 0
    omega
  refine (Ideal.multiReduction_add_single _ _ h1 hφ hacc (ix1 r)).trans ?_
  exact Finset.sum_congr rfl fun j _ => congrArg src (lift_row h1 r j)

/-- The update at its one entry: the scratch there plus the loss summed over the two blocks, rows then columns. -/
theorem update_apply (x0 x1 : Vec Ideal S256x4096 .f32) (s : Vec Ideal S1x1 .f32) (y : S1x1.Idx) :
    k0_pay2 (F := Ideal) x0 x1 s y
      = s y + ∑ r : Fin 256, ∑ j : Fin 4096, lossAt (x0 (ix2 r j)) (x1 (ix2 r j)) := by
  unfold k0_pay2
  dsimp only
  rw [shapeCast_self]
  exact congrArg (s y + ·) (sum_rows_then_col (fun i => lossAt (x0 i) (x1 i)) _ _ _ _ _ _ _ _ y)

/-- The entry the first point stores before updating is zero. -/
theorem reset_apply (y : S1x1.Idx) : k0_pay1 (F := Ideal) y = 0 := by
  unfold k0_pay1
  rw [shapeCast_self]
  exact Ideal.ofBits_zero_f32

end Cert.KernelIdeal.Payload

end
-- ==== Proof.Accumulated.lean ====
/-
  The kernel's running total is the sum of the block sums, and its result array ends at the total.

  Block `t` of an argument array, read through the window, is the array's rows `256 * t` … `256 * t + 255`: entry `(r, j)`
  of the block is entry `(256 * t + r, j)` of the array (the window's index map is `t ↦ (t, 0)`, its block 256 × 4096).
  So the loss summed over the pair of blocks at point `t` is `blockSum` at `t`, and by induction on the point the scratch
  after point `n` holds the running total of blocks `0` … `n`: at the first point zero plus the first block sum, at each
  later point the previous total plus that point's block sum. The output's one-entry block is written back at the last
  point only, as a copy of the scratch, and that block is the whole result array: it ends holding the total of all 64
  block sums, which is the loss summed over every pair.
-/
import proofs.«143065_j13975823581342_1_alg».proof.Proof.Carried
import proofs.«143065_j13975823581342_1_alg».proof.Proof.Payload

noncomputable section

open scoped BigOperators

open Idealize.ShloMosaic Idealize.ShloMosaic.TcCoe Idealize.SL.Sem
open Idealize.ShloMosaic.Pipeline (Dat)

namespace Cert.KernelIdeal.Accumulated

open Cert.KernelIdeal Cert.KernelIdeal.Gen Cert.KernelIdeal.Carried Cert.KernelIdeal.Payload Cert.LossSum
open Idealize.ShloMosaic.ValueIdx

variable (m : (ℓ : Loc nD τ sig) → Buf (Elt Ideal) ℓ)

/-- The two argument arrays as the region finds them, at their literal type. -/
abbrev xarr (c : Dev nD) : Vec Ideal S16384x4096 .f32 := V m c main_arg0
abbrev yarr (c : Dev nD) : Vec Ideal S16384x4096 .f32 := V m c main_arg1

/-- The windows' index maps over the grid: point `t` takes row block `t`, column block `0`, of either argument. -/
theorem index_maps : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(r, j)` of the first argument's block at point `t` is entry `(256 * t + r, j)` of the array. -/
theorem xblk_apply (c : Dev nD) (t : Fin cfg0.N) (ht : t.val < 64) (r : Fin 256) (j : Fin 4096) :
    xblk m c t (ix2 r j) = xarr m c (ix2 (rowOf ⟨t.val, ht⟩ r) j) := by
  show iblk m c 0 t (ix2 r j) = V m c main_arg0 (ix2 (rowOf ⟨t.val, ht⟩ r) j)
  unfold iblk
  rw [View.read_apply]
  show V m c main_arg0 _ = V m c main_arg0 _
  congr 1
  funext a
  apply Fin.ext
  match a with
  | ⟨0, _⟩ =>
    show win0_0.index t 0 * 256 + 1 * r.val = 256 * t.val + r.val
    rw [(index_maps t).1]; omega
  | ⟨1, _⟩ =>
    show win0_0.index t 1 * 4096 + 1 * j.val = j.val
    rw [(index_maps t).2.1]; omega

/-- The same for the second argument. -/
theorem yblk_apply (c : Dev nD) (t : Fin cfg0.N) (ht : t.val < 64) (r : Fin 256) (j : Fin 4096) :
    yblk m c t (ix2 r j) = yarr m c (ix2 (rowOf ⟨t.val, ht⟩ r) j) := by
  show iblk m c 1 t (ix2 r j) = V m c main_arg1 (ix2 (rowOf ⟨t.val, ht⟩ r) j)
  unfold iblk
  rw [View.read_apply]
  show V m c main_arg1 _ = V m c main_arg1 _
  congr 1
  funext a
  apply Fin.ext
  match a with
  | ⟨0, _⟩ =>
    show win0_1.index t 0 * 256 + 1 * r.val = 256 * t.val + r.val
    rw [(index_maps t).2.2.1]; omega
  | ⟨1, _⟩ =>
    show win0_1.index t 1 * 4096 + 1 * j.val = j.val
    rw [(index_maps t).2.2.2]; omega

/-- The loss summed over the pair of blocks at point `t` is block `t`'s sum. -/
theorem block_loss (c : Dev nD) (t : Fin cfg0.N) :
    ∑ r : Fin 256, ∑ j : Fin 4096, lossAt (xblk m c t (ix2 r j)) (yblk m c t (ix2 r j))
      = blockSumN (xarr m c) (yarr m c) t.val := by
  have ht : t.val < 64 := lt_of_lt_of_eq t.isLt (show cfg0.N = 64 from N_0)
  rw [blockSumN_of_lt _ _ _ ht]
  unfold blockSum
  exact Finset.sum_congr rfl fun r _ => Finset.sum_congr rfl fun j _ => by
    rw [xblk_apply m c t ht r j, yblk_apply m c t ht r j]

/-- After point `n` the scratch's entry is the running total of blocks `0` … `n`. -/
theorem scratch_eq (c : Dev nD) : ∀ (n : ℕ) (hn : n < cfg0.N) (y : S1x1.Idx),
    scratchAt m c n hn y = running (xarr m c) (yarr m c) n
  | 0, hn, y => by
    refine (congrFun (scratch_init m c ⟨0, hn⟩ rfl) y).trans ?_
    refine (update_apply _ _ _ y).trans ?_
    rw [reset_apply, running_zero]
    exact congrArg (0 + ·) (block_loss m c ⟨0, hn⟩)
  | n + 1, hn, y => by
    have hN : cfg0.N = 64 := N_0
    have h0 : ¬(⟨n + 1, hn⟩ : Fin cfg0.N).val % 64 = 0 := by dsimp only; omega
    refine (congrFun (scratch_step m c ⟨n + 1, hn⟩ h0) y).trans ?_
    refine (update_apply _ _ _ y).trans ?_
    rw [running_succ]
    show scratchAt m c n _ y + _ = _
    rw [scratch_eq c n _ y, block_loss m c ⟨n + 1, hn⟩]

/-- The contents the result array ends with: the loss summed over every pair, at its one entry. -/
abbrev outArr (c : Dev nD) : Buf (Elt Ideal) ((c : Thread nD τ).loc main_v0) := fun _ => total (xarr m c) (yarr m c)

/-- After the last point the scratch's entry is the loss summed over every pair. -/
theorem scratch_total (c : Dev nD) (t : Fin cfg0.N) (h63 : t.val % 64 = 63) :
    scratchAt m c t.val t.isLt = fun _ => total (xarr m c) (yarr m c) := by
  have hN : t.val < 64 := lt_of_lt_of_eq t.isLt (show cfg0.N = 64 from N_0)
  have ht : t.val = 63 := by omega
  funext y
  rw [scratch_eq m c t.val t.isLt y, ht]
  exact running_last (xarr m c) (yarr m c)

/-- The last point. -/
abbrev tLast : Fin cfg0.N := ⟨63, by rw [show cfg0.N = 64 from N_0]; decide⟩

/-- The one write-back, at the last point, writes the total: the output's block there is the whole one-entry array, read
    through zero offsets. -/
theorem flushed_eq (c : Dev nD) (t : Fin cfg0.N) (hf : (cfg0.win 2).flush t = true) :
    (dats m 0 c).flushed 2 t = ((cfg0.win 2).blk t).view.read (Elt Ideal) (outArr m c) := by
  have h63 : t.val % 64 = 63 := (flush0_2 t).mp hf
  have hN : t.val < 64 := lt_of_lt_of_eq t.isLt (show cfg0.N = 64 from N_0)
  obtain rfl : t = tLast := Fin.ext (show t.val = 63 by omega)
  show (cfg0.win 2).cut (grid0.coords tLast) ((dats m 0 c).after 2 tLast) = _
  rw [after0_2, out_final m c tLast h63, scratch_total m c tLast h63]
  have hz' : (fun a => win0_2.index tLast a * main_v0.ty.shape.size a) = fun _ => 0 :=
    funext fun a => by fin_cases a <;> decide
  exact (Memref.read_access_unit_zero (Elt Ideal) main_v0 hz' (fun a => by rw [congrFun hz' a]; simp) (outArr m c)).symm

/-- So the result array ends holding the total: the last point's block is the whole one-entry array. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

end Cert.KernelIdeal.Accumulated

end
-- ==== Proof.KernelResult.lean ====
/-
  The kernel's result.

  After the region the program reshapes the one-entry result array to a scalar and divides it by 16384. The region leaves
  that array at the loss summed over every pair (`final_out`), every other buffer as it was, and a reshape of a constant
  array is the same constant; so the scalar the program returns is `Cert.LossSum.result` of the two arguments, and the
  arguments end unchanged.
-/
import proofs.«143065_j13975823581342_1_alg».proof.Proof.Accumulated
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accumulated Cert.LossSum
open Idealize.ShloMosaic.ValueIdx

variable (m : (ℓ : Loc nD τ sig) → Buf (Elt Ideal) ℓ) (ρ : Dev nD → PrngReg)

/-- The returned scalar's buffer is no array of the region and is not scoped: the lines after the region decide it. -/
theorem result_mem : main_v2 ∈ Pipeline.restRefs sig (cfgs 0).spec :=
  Pipeline.mem_restRefs_of main_v2 rfl (by decide)

/-- What the region leaves in the result array, as the lines after it find it. -/
theorem array_after (c : Dev nD) :
    Pipeline.withArrays (cfgs 0).spec c (V0 m c) (fun w => (dats m 0 c).arrAt w (cfgs 0).N) (Proc.tc.devRef main_v0)
      = outArr m c :=
  (Pipeline.withArrays_arr spec0 launch0.win.arr_inj c _ _ 2).trans (final_out m c)

/-- The lines after the region turn it into the total divided by 16384. -/
theorem tail_eq (c : Dev nD) :
    Pipeline.afterTail₀ cfgs (dats m) 0 (V0 m) [hostOps1] c main_v2 = result (xarr m c) (yarr m c) := by
  unfold Pipeline.afterTail₀
  show StableHlo.after hostOps1 _ (Proc.devRef .tc main_v2) = _
  after_results
  rw [array_after m c]
  rfl

/-- The run, read: the returned scalar at `result` of the two arguments, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefTotal.lean ====
/-
  The reference computes `Cert.LossSum.result`.

  Its program forms the loss of every pair as one array (a subtraction, an absolute value, a comparison with the
  broadcast `β`, the two products, the select), reduces that array over both axes from the initial value `0`, and divides
  by 16384. Read at an index, the select stage is `lossAt` of the two arguments there: every operation is elementwise,
  a broadcast scalar reads its one value everywhere, and on the extended reals the host's absolute value is the
  kernel's. The reduce into a scalar is the initial value plus the sum over every index, and the initial value is zero.
-/
import proofs.«143065_j13975823581342_1_alg».proof.Proof.Gen.ReferenceIdeal.Read
import proofs.«143065_j13975823581342_1_alg».proof.Proof.LossSum

noncomputable section

open scoped BigOperators

namespace Cert.ReferenceIdeal.RefValue

open Cert.ReferenceIdeal Cert.ReferenceIdeal.Gen Cert.ReferenceIdeal.Read Cert.LossSum
open Idealize.ShloMosaic Idealize.ShloMosaic.ValueIdx

/-- The select stage at an index is the loss of the pair there. -/
theorem loss_stage (x0 x1 : S16384x4096.Idx → EReal) (i : S16384x4096.Idx) :
    val_main_v11 (F := Ideal) x0 x1 i = lossAt (x0 i) (x1 i) := rfl

/-- The reduce over both axes, from zero, is the sum of the loss over every pair. -/
theorem reduce_stage (x0 x1 : S16384x4096.Idx → EReal) :
    val_main_v12 (F := Ideal) x0 x1 = fun _ => total x0 x1 := by
  funext i
  rw [val_main_v12_apply, val_main_cst_3_apply]
  show Ideal.ofBits .f32 0x00000000#32 + _ = _
  rw [Ideal.ofBits_zero_f32, zero_add]
  exact Finset.sum_congr rfl fun j _ => loss_stage x0 x1 j

/-- So the reference's result is the total divided by 16384. -/
theorem result_stage (x0 x1 : S16384x4096.Idx → EReal) :
    val_main_v13 (F := Ideal) x0 x1 = result x0 x1 := by
  unfold val_main_v13
  rw [reduce_stage]
  rfl

end Cert.ReferenceIdeal.RefValue

end
-- ==== Proof.lean ====
/-
  The kernel and the reference compute the same scalar on the extended reals.

  Both take two arrays `x`, `y` of 16384 × 4096 entries. For a pair of entries with difference `z` the loss is
  `(h * z) * z` where `|z| < β` and `β * (|z| - γ)` elsewhere; `β`, `h`, `γ` are the same three float words in both programs,
  so nothing depends on what they denote. The reference forms the loss of every pair, reduces it over both axes from zero
  and divides by 16384. The kernel walks the rows in 64 blocks of 256: at each block it sums the loss along every row,
  sums the 256 row sums, and adds that to a one-entry running total, zeroed at the first block and copied to the result at
  the last; then the program divides by 16384 as the reference does.

  The two results differ only in how one sum is grouped: 64 blocks × 256 rows × 4096 columns against all pairs at
  once. Addition on the extended reals is a commutative monoid, so the regrouping (the bijection
  `(t, r) ↦ 256 * t + r` between block-and-row and row) needs no finiteness, and the precondition is never opened.

  `LossSum` states the mathematics over no program; `RefTotal` reads the reference as it; `Pieces`, `Carried`, `Payload`
  and `Accumulated` read the kernel's running total point by point and its result array; `KernelResult` adds the division.
  The ideal pass rewrote nothing, so the kernel's idealization is its own text read on the extended reals.
-/
import proofs.«143065_j13975823581342_1_alg».proof.Defs
import proofs.«143065_j13975823581342_1_alg».proof.Proof.Gen.Kernel
import proofs.«143065_j13975823581342_1_alg».proof.Proof.Gen.Kernel.Skeleton
import proofs.«143065_j13975823581342_1_alg».proof.Proof.Gen.Kernel.Launch
import proofs.«143065_j13975823581342_1_alg».proof.Proof.Gen.Kernel.Points
import proofs.«143065_j13975823581342_1_alg».proof.Proof.Gen.Kernel.Frame
import proofs.«143065_j13975823581342_1_alg».proof.Proof.Gen.KernelIdeal
import proofs.«143065_j13975823581342_1_alg».proof.Proof.Gen.KernelIdeal.Skeleton
import proofs.«143065_j13975823581342_1_alg».proof.Proof.Gen.KernelIdeal.Launch
import proofs.«143065_j13975823581342_1_alg».proof.Proof.Gen.KernelIdeal.Points
import proofs.«143065_j13975823581342_1_alg».proof.Proof.Gen.KernelIdeal.Frame
import proofs.«143065_j13975823581342_1_alg».proof.Proof.Gen.ReferenceIdeal
import proofs.«143065_j13975823581342_1_alg».proof.Proof.Gen.ReferenceIdeal.Run
import proofs.«143065_j13975823581342_1_alg».proof.Proof.Gen.ReferenceIdeal.Read
import proofs.«143065_j13975823581342_1_alg».proof.Proof.Gen.Pre_finite_inputs
import proofs.«143065_j13975823581342_1_alg».proof.Proof.KernelResult
import proofs.«143065_j13975823581342_1_alg».proof.Proof.RefTotal
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the two arguments both programs end with the loss summed over every pair, divided by
    16384: the kernel by its running total over the 64 blocks, the reference by its one reduce. -/
theorem algebraic : Cert.algebraic_KernelIdeal_ReferenceIdeal := by
  intro m ρ m' ρ' _ hagree
  refine ⟨fun c => Cert.LossSum.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_stage, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
